-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg5 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S5000x128 : Shape := ⟨2, ![5000, 128]⟩
abbrev S1700000x128 : Shape := ⟨2, ![1700000, 128]⟩
abbrev S1x128 : Shape := ⟨2, ![1, 128]⟩

abbrev nBuf : Space → Nat
  | .hbm => 84
  | .vmem => 20
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .i32⟩
  | .hbm, ⟨67, _⟩ => ⟨S1700000, .i32⟩
  | .hbm, ⟨68, _⟩ => ⟨S1700000, .i1⟩
  | .hbm, ⟨69, _⟩ => ⟨S_, .i32⟩
  | .hbm, ⟨70, _⟩ => ⟨S1700000, .i32⟩
  | .hbm, ⟨71, _⟩ => ⟨S1700000, .i32⟩
  | .hbm, ⟨72, _⟩ => ⟨S1700000, .i32⟩
  | .hbm, ⟨73, _⟩ => ⟨S1700000x1, .i32⟩
  | .hbm, ⟨74, _⟩ => ⟨S1700000x128, .f32⟩
  | .hbm, ⟨75, _⟩ => ⟨S1700000x1, .f32⟩
  | .hbm, ⟨76, _⟩ => ⟨S1700000x128, .f32⟩
  | .hbm, ⟨77, _⟩ => ⟨S1700000x128, .f32⟩
  | .hbm, ⟨78, _⟩ => ⟨S_, .f32⟩
  | .hbm, ⟨79, _⟩ => ⟨S100000x128, .f32⟩
  | .hbm, ⟨80, _⟩ => ⟨S1700000x1, .i32⟩
  | .hbm, ⟨81, _⟩ => ⟨S100000x128, .f32⟩
  | .hbm, ⟨82, _⟩ => ⟨S1x128, .f32⟩
  | .hbm, ⟨83, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S100000x128.size a
  hwx1_2 : ∀ i : grid1.Coords, EltTy.bits .f32 = 32 ∨ (Rect.block (s := S100000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S100000x128.size a
  hwx3_2 : ∀ i : grid3.Coords, EltTy.bits .f32 = 32 ∨ (Rect.block (s := S100000x128) S5000x128.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x128, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x128, .f32⟩
  | .hbm, ⟨56, _⟩ => ⟨S1700000x1, .f32⟩
  | .hbm, ⟨57, _⟩ => ⟨S1700000x128, .f32⟩
  | .hbm, ⟨58, _⟩ => ⟨S1700000x128, .f32⟩
  | .hbm, ⟨59, _⟩ => ⟨S_, .f32⟩
  | .hbm, ⟨60, _⟩ => ⟨S100000x128, .f32⟩
  | .hbm, ⟨61, _⟩ => ⟨S1700000x1, .i32⟩
  | .hbm, ⟨62, _⟩ => ⟨S100000x128, .f32⟩
  | .hbm, ⟨63, _⟩ => ⟨S1x128, .f32⟩
  | .hbm, ⟨64, _⟩ => ⟨S100000x128, .f32⟩
  | .hbm, ⟨65, _⟩ => ⟨S100000x128, .f32⟩
  | .hbm, ⟨66, _⟩ => ⟨S_, .f32⟩
  | .hbm, ⟨67, _⟩ => ⟨S100000x128, .f32⟩
  | .hbm, ⟨68, _⟩ => ⟨S100000x128, .f32⟩
  | .hbm, ⟨69, _⟩ => ⟨S100000x128, .f32⟩
  | .hbm, ⟨70, _⟩ => ⟨S_, .i32⟩
  | .hbm, ⟨71, _⟩ => ⟨S1700000, .i32⟩
  | .hbm, ⟨72, _⟩ => ⟨S1700000, .i1⟩
  | .hbm, ⟨73, _⟩ => ⟨S_, .i32⟩
  | .hbm, ⟨74, _⟩ => ⟨S1700000, .i32⟩
  | .hbm, ⟨75, _⟩ => ⟨S1700000, .i32⟩
  | .hbm, ⟨76, _⟩ => ⟨S1700000, .i32⟩
  | .hbm, ⟨77, _⟩ => ⟨S1700000x1, .i32⟩
  | .hbm, ⟨78, _⟩ => ⟨S1700000x128, .f32⟩
  | .hbm, ⟨79, _⟩ => ⟨S1700000x1, .f32⟩
  | .hbm, ⟨80, _⟩ => ⟨S1700000x128, .f32⟩
  | .hbm, ⟨81, _⟩ => ⟨S1700000x128, .f32⟩
  | .hbm, ⟨82, _⟩ => ⟨S_, .f32⟩
  | .hbm, ⟨83, _⟩ => ⟨S100000x128, .f32⟩
  | .hbm, ⟨84, _⟩ => ⟨S1700000x1, .i32⟩
  | .hbm, ⟨85, _⟩ => ⟨S100000x128, .f32⟩
  | .hbm, ⟨86, _⟩ => ⟨S1x128, .f32⟩
  | .hbm, ⟨87, _⟩ => ⟨S100000x128, .f32⟩
  | .hbm, ⟨88, _⟩ => ⟨S100000x128, .f32⟩
  | .hbm, ⟨89, _⟩ => ⟨S_, .f32⟩
  | .hbm, ⟨90, _⟩ => ⟨S100000x128, .f32⟩
  | .hbm, ⟨91, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_v65 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf

class Facts : Prop extends Facts₀ where

variable [Facts]
-- ==== Proof.Chains.lean ====
/-
  The host stages both programs share, each as one function of the arrays it reads, at any float family:
  the edge list with one self loop per node appended (`srcIx`, `dstIx`), the inverse square root of a node's
  in-degree with zero where the degree is not positive (`invDeg`), an index read the way jnp reads it, a negative
  one counted from the end (`wrapIx`), the edge weight invDeg(src) * invDeg(dst) (`edgeNorm`), the weighted
  sum of the source rows into each destination row (`aggregate`), and a bias vector laid out as one row (`asRow`).
-/
import proofs.«177575_j53472342835252_1_alg».proof.Proof.Gen.ReferenceIdeal

noncomputable section

namespace Cert.Bridge

open Idealize.ShloMosaic Cert.ReferenceIdeal Cert.ReferenceIdeal.Facts₀

variable {F : FTy → Type} [FloatOps F]

/-- The source node of every edge, then node n as the source of its own self loop. -/
def srcIx (e : (⟨S2x1600000, .i32⟩ : BufTy).Contents (Elt F)) : (⟨S1700000, .i32⟩ : BufTy).Contents (Elt F) :=
  concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0

/-- The destination node of every edge, then node n as the destination of its own self loop. -/
def dstIx (e : (⟨S2x1600000, .i32⟩ : BufTy).Contents (Elt F)) : (⟨S1700000, .i32⟩ : BufTy).Contents (Elt F) :=
  concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0

/-- A node index as jnp reads it: a negative one has the node count added. -/
def wrapIx (v : (⟨S1700000, .i32⟩ : BufTy).Contents (Elt F)) : (⟨S1700000, .i32⟩ : BufTy).Contents (Elt F) :=
  select (cmpi .slt v (broadcastInDim S1700000 ![] bcast_S_S1700000 (constantI S_ 32 0#32)))
    (addi v (broadcastInDim S1700000 ![] bcast_S_S1700000 (constantI S_ 32 100000#32))) v

/-- The in-degree of every node (one per edge into it), then its inverse square root where it is positive and zero elsewhere. -/
def invDeg (d : (⟨S1700000, .i32⟩ : BufTy).Contents (Elt F)) : (⟨S100000, .f32⟩ : BufTy).Contents (Elt F) :=
  select
    (cmpf (F := F) .ogt
      (Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32)))
      (broadcastInDim S100000 ![] bcast_S_S100000 (constant S_ .f32 0x00000000#32)))
    (Host.rsqrt
      (Host.scatterAdd scatter_S100000_S1700000x1_S1700000_n_0_0_1 (broadcastInDim S100000 ![] bcast_S_S100000 (constant S_ .f32 0x00000000#32)) (broadcastInDim S1700000x1 ![0] bcast_S1700000_S1700000x1_0 d) (broadcastInDim S1700000 ![] bcast_S_S1700000 (constant S_ .f32 0x3F800000#32))))
    (broadcastInDim S100000 ![] bcast_S_S100000 (id (constant S_ .f32 0x00000000#32)))

/-- The weight of every edge: the inverse-root degree of its source times that of its destination. -/
def edgeNorm (s d : (⟨S1700000, .i32⟩ : BufTy).Contents (Elt F)) : (⟨S1700000, .f32⟩ : BufTy).Contents (Elt F) :=
  mulf
    (Host.gather gather_S100000_S1700000x1_S1700000_n_0_n_n_0_1_1 (invDeg d) (broadcastInDim S1700000x1 ![0] bcast_S1700000_S1700000x1_0 (wrapIx s)))
    (Host.gather gather_S100000_S1700000x1_S1700000_n_0_n_n_0_1_1 (invDeg d) (broadcastInDim S1700000x1 ![0] bcast_S1700000_S1700000x1_0 (wrapIx d)))

/-- Every edge carries its source's row of `h`, scaled by the edge's weight, into its destination's row, where the rows are summed. -/
def aggregate (h : (⟨S100000x128, .f32⟩ : BufTy).Contents (Elt F)) (s d : (⟨S1700000, .i32⟩ : BufTy).Contents (Elt F))
    (nrm : (⟨S1700000, .f32⟩ : BufTy).Contents (Elt F)) : (⟨S100000x128, .f32⟩ : BufTy).Contents (Elt F) :=
  Host.scatterAdd scatter_S100000x128_S1700000x1_S1700000x128_1_0_0_1
    (broadcastInDim S100000x128 ![] bcast_S_S100000x128 (constant S_ .f32 0x00000000#32))
    (broadcastInDim S1700000x1 ![0] bcast_S1700000_S1700000x1_0 d)
    (mulf
      (Host.gather gather_S100000x128_S1700000x1_S1700000x128_1_0_n_n_0_1_1128 h (broadcastInDim S1700000x1 ![0] bcast_S1700000_S1700000x1_0 (wrapIx s)))
      (broadcastInDim S1700000x128 ![0, 1] bcast_S1700000x1_S1700000x128_0_1 (broadcastInDim S1700000x1 ![0] bcast_S1700000_S1700000x1_0 nrm)))

/-- A bias vector laid out as the one row of a [1, 128] array. -/
def asRow (b : (⟨S128, .f32⟩ : BufTy).Contents (Elt F)) : (⟨S1x128, .f32⟩ : BufTy).Contents (Elt F) :=
  broadcastInDim S1x128 ![1] bcast_S128_S1x128_1 b

end Cert.Bridge

end
-- ==== Proof.Spec.lean ====
/-
  The two dense stages of one graph-convolution layer as whole-array functions, at any float family,
  spelt with the host operations the reference applies: `dense x w` is every row of `x` against `w`
  (entry (r, j) is the sum over k of x(r, k) * w(k, j)), and `biasRelu o b` adds the bias row `b` to every
  row of `o` and takes the maximum with zero.
-/
import proofs.«177575_j53472342835252_1_alg».proof.Proof.Gen.KernelIdeal
import proofs.«177575_j53472342835252_1_alg».proof.Proof.Gen.ReferenceIdeal
import Idealize.ShloMosaic.PureOps.Ideal

noncomputable section

namespace Cert.Bridge

open Idealize.ShloMosaic

variable {F : FTy → Type} [FloatOps F]

/-- Every row of `x` against `w`: entry (r, j) is the sum over k of x(r, k) * w(k, j). -/
def dense (x : (⟨Cert.ReferenceIdeal.S100000x128, .f32⟩ : BufTy).Contents (Elt F))
    (w : (⟨Cert.ReferenceIdeal.S128x128, .f32⟩ : BufTy).Contents (Elt F)) :
    (⟨Cert.ReferenceIdeal.S100000x128, .f32⟩ : BufTy).Contents (Elt F) :=
  Host.dotGeneral Cert.ReferenceIdeal.dot_S100000x128_S128x128_S100000x128_1_0_0_1_n_n none x w

/-- The bias row `b` added to every row of `o`, then the maximum with zero. -/
def biasRelu (o : (⟨Cert.ReferenceIdeal.S100000x128, .f32⟩ : BufTy).Contents (Elt F))
    (b : (⟨Cert.ReferenceIdeal.S1x128, .f32⟩ : BufTy).Contents (Elt F)) :
    (⟨Cert.ReferenceIdeal.S100000x128, .f32⟩ : BufTy).Contents (Elt F) :=
  maximumf (addf o (broadcastInDim Cert.ReferenceIdeal.S100000x128 ![0, 1] Cert.ReferenceIdeal.Facts₀.bcast_S1x128_S100000x128_0_1 b))
    (broadcastInDim Cert.ReferenceIdeal.S100000x128 ![] Cert.ReferenceIdeal.Facts₀.bcast_S_S100000x128 (constant Cert.ReferenceIdeal.S_ .f32 0x00000000#32))

end Cert.Bridge

end
-- ==== Proof.Region0.lean ====
/-
  Region 0 of the kernel's @main as one function of the arrays it enters with: its result array ends at every row of the first array against the second (each grid point writes 5000 rows, twenty points cover the 100000).
-/
import proofs.«177575_j53472342835252_1_alg».proof.Proof.Gen.KernelIdeal.Frame
import proofs.«177575_j53472342835252_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region0

open Cert.KernelIdeal Cert.KernelIdeal.Gen

/-- The zero offsets of a whole-block access. -/
theorem hz : (![0, 0] : Fin 2 → Nat) = fun _ => 0 := funext fun a => by fin_cases a <;> rfl

/-! ## The block product read at an index

The body multiplies a block of 5000 rows by the whole 128 x 128 array: with axis 1 of the left operand contracted
against axis 0 of the right, entry (p, q) of the result is the sum over k of left(p, k) * right(k, q). -/

/-- Axis 0 of the left operand's index is the output's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left operand's index is the contraction index. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right operand's index is the contraction index. -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right operand's index is the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's arithmetic on its two loaded blocks, at entry (p, q): the sum over k of x0(p, k) * x1(k, q). The format
    changes are the identity on the extended reals and the accumulator is zero. -/
theorem pay_apply (x0 : Vec Ideal S5000x128 .f32) (x1 : Vec Ideal S128x128 .f32) (p : Fin 5000) (q : Fin 128) :
    k0_pay1 (F := Ideal) x0 x1 (ValueIdx.ix2 p q) = ∑ k : Fin 128, x0 (ValueIdx.ix2 p k) * x1 (ValueIdx.ix2 k q) := by
  unfold k0_pay1
  simp only [truncf, matmul, Ideal.truncf_def]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_0 _ _).trans hk
    | ⟨1, _⟩ => exact rhs_1 _ _)
  rw [el, er]
  rfl

/-! ## The whole-array product read at an index -/

/-- Axis 0 of the left operand's index is the output's row. -/
theorem dlhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- Axis 1 of the left operand's index is the contraction index. -/
theorem dlhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- Axis 0 of the right operand's index is the contraction index. -/
theorem drhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- Axis 1 of the right operand's index is the output's column. -/
theorem drhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Every row of `x` against `w`, at entry (r, q): the sum over k of x(r, k) * w(k, q). -/
theorem dense_apply (x : (⟨Cert.ReferenceIdeal.S100000x128, .f32⟩ : BufTy).Contents (Elt Ideal)) (w : (⟨Cert.ReferenceIdeal.S128x128, .f32⟩ : BufTy).Contents (Elt Ideal)) (r : Fin 100000) (q : Fin 128) :
    Cert.Bridge.dense (F := Ideal) x w (ValueIdx.ix2 r q) = ∑ k : Fin 128, x (ValueIdx.ix2 r k) * w (ValueIdx.ix2 k q) := by
  unfold Cert.Bridge.dense
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ValueIdx.ix2 r q) ((ValueIdx.contrEquiv1 Cert.ReferenceIdeal.dot_S100000x128_S128x128_S100000x128_1_0_0_1_n_n 128 rfl rfl).symm k) = ValueIdx.ix2 r k := funext fun a => Fin.ext (by
    match a with
    | ⟨0, _⟩ => exact dlhs_0 _ _
    | ⟨1, _⟩ => exact (dlhs_1 _ _).trans hk)
  have er : Cert.ReferenceIdeal.dot_S100000x128_S128x128_S100000x128_1_0_0_1_n_n.rhsIdx (ValueIdx.ix2 r q) ((ValueIdx.contrEquiv1 Cert.ReferenceIdeal.dot_S100000x128_S128x128_S100000x128_1_0_0_1_n_n 128 rfl rfl).symm k) = ValueIdx.ix2 k q := funext fun a => Fin.ext (by
    match a with
    | ⟨0, _⟩ => exact (drhs_0 _ _).trans hk
    | ⟨1, _⟩ => exact drhs_1 _ _)
  rw [el, er]

/-! ## The blocks -/

/-- The block indices at grid point `t`: the first input's block and the output's block are both block (t, 0) of
    5000 x 128; the second input's block is block (0, 0), the whole 128 x 128 array. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) = t.val :=
  (by decide +kernel : ∀ t : Fin grid0.N, _)

/-- Entry (p, k) of the first input's block at point `t` is entry (5000 t + p, k) of the first array. -/
theorem blk0_apply (V : (c : Dev nD) → (b : Ref sig .tc) → Buf (Elt Ideal) ((c : Thread nD τ).loc b)) (c : Dev nD) (t : Fin cfg0.N)
    (p : Fin 5000) (k : Fin 128) (r : Fin 100000) (hr : r.val = win0_2.index t (0 : Fin 2) * 5000 + p.val) :
    (iblk0 V c 0 t : Vec Ideal S5000x128 .f32) (ValueIdx.ix2 p k) = (V c (Pipeline.arrRef spec0 0) : S100000x128.Idx → Elt Ideal .f32) (ValueIdx.ix2 r k) := by
  obtain ⟨e0, e1, e2, e3, e4, e5⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t (0 : Fin 2) * 5000 + 1 * p.val = r.val; omega
  | ⟨1, _⟩ => show win0_0.index t (1 : Fin 2) * 128 + 1 * k.val = k.val; omega

/-- Entry (k, q) of the second input's block at any point is entry (k, q) of the second array. -/
theorem blk1_apply (V : (c : Dev nD) → (b : Ref sig .tc) → Buf (Elt Ideal) ((c : Thread nD τ).loc b)) (c : Dev nD) (t : Fin cfg0.N)
    (k : Fin 128) (q : Fin 128) :
    (iblk0 V c 1 t : Vec Ideal S128x128 .f32) (ValueIdx.ix2 k q) = (V c (Pipeline.arrRef spec0 1) : S128x128.Idx → Elt Ideal .f32) (ValueIdx.ix2 k q) := by
  obtain ⟨e0, e1, e2, e3, e4, e5⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t (0 : Fin 2) * 128 + 1 * k.val = k.val; omega
  | ⟨1, _⟩ => show win0_1.index t (1 : Fin 2) * 128 + 1 * q.val = q.val; omega

/-- What point `t` writes back is block `t` of the whole-array product: at entry (p, q) of the block both are the sum
    over k of first(5000 t + p, k) * second(k, q). -/
theorem flushed_eq (V : (c : Dev nD) → (b : Ref sig .tc) → Buf (Elt Ideal) ((c : Thread nD τ).loc b)) (c : Dev nD) (t : Fin cfg0.N) :
    (dat0 (F := Ideal) V c).flushed 2 t = ((cfg0.win 2).blk t).view.read (Elt Ideal) (Cert.Bridge.dense (F := Ideal) (V c (Pipeline.arrRef spec0 0)) (V c (Pipeline.arrRef spec0 1))) := by
  show (cfg0.win 2).cut (grid0.coords t) ((dat0 (F := Ideal) V c).after 2 t) = _
  rw [after0_2]
  unfold out0_2
  rw [View.canon_unit_zero hz]
  simp only [View.ld_unit_zero (S := S5000x128) hz, View.ld_unit_zero (S := S128x128) hz]
  funext j
  obtain ⟨p, q, rfl⟩ : ∃ (p : Fin 5000) (q : Fin 128), j = ValueIdx.ix2 p q := ⟨j 0, j 1, ValueIdx.eq_ix2 j⟩
  obtain ⟨e0, e1, e2, e3, e4, e5⟩ := idx_facts t
  have ht : t.val < 20 := lt_of_lt_of_eq t.isLt N_0
  show k0_pay1 (F := Ideal) (iblk0 V c 0 t) (iblk0 V c 1 t) (ValueIdx.ix2 p q) = Cert.Bridge.dense (F := Ideal) (V c (Pipeline.arrRef spec0 0)) (V c (Pipeline.arrRef spec0 1)) (((cfg0.win 2).blk t).view.emb (ValueIdx.ix2 p q))
  have hi : ((cfg0.win 2).blk t).view.emb (ValueIdx.ix2 p q) = ValueIdx.ix2 (⟨win0_2.index t (0 : Fin 2) * 5000 + p.val, by omega⟩ : Fin 100000) q := by
    funext a; apply Fin.ext
    match a with
    | ⟨0, _⟩ => show win0_2.index t (0 : Fin 2) * 5000 + 1 * p.val = win0_2.index t (0 : Fin 2) * 5000 + p.val; omega
    | ⟨1, _⟩ => show win0_2.index t (1 : Fin 2) * 128 + 1 * q.val = q.val; omega
  rw [hi, pay_apply, dense_apply]
  refine Finset.sum_congr rfl fun k _ => ?_
  rw [blk0_apply V c t p k ⟨win0_2.index t (0 : Fin 2) * 5000 + p.val, by omega⟩ rfl, blk1_apply V c t k q]

/-! ## The cover -/

/-- An index of the array is in point `t`'s output block iff each coordinate is in the block's range on its axis. -/
theorem mem_blk (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index (r, q) of the array is in the output block of point r / 5000, and every point writes its block back. -/
theorem covered (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : cfg0.N = 20 := N_0
  obtain ⟨e0, e1, e2, e3, e4, e5⟩ := idx_facts ⟨(i 0).val / 5000, by rw [hN]; omega⟩
  refine ⟨⟨(i 0).val / 5000, by rw [hN]; omega⟩, flush0_2 _, ?_⟩
  rw [mem_blk]
  intro a
  match a with
  | ⟨0, _⟩ =>
    show win0_2.index ⟨(i 0).val / 5000, _⟩ (0 : Fin 2) * 5000 ≤ (i 0).val ∧ (i 0).val < win0_2.index ⟨(i 0).val / 5000, _⟩ (0 : Fin 2) * 5000 + 5000
    rw [e5]
    show (i 0).val / 5000 * 5000 ≤ (i 0).val ∧ (i 0).val < (i 0).val / 5000 * 5000 + 5000
    omega
  | ⟨1, _⟩ =>
    show win0_2.index ⟨(i 0).val / 5000, _⟩ (1 : Fin 2) * 128 ≤ (i 1).val ∧ (i 1).val < win0_2.index ⟨(i 0).val / 5000, _⟩ (1 : Fin 2) * 128 + 128
    rw [e4]
    omega

/-- The array region 0 writes, after its twenty grid points, as one function of the two arrays it reads. -/
theorem value (V : (c : Dev nD) → (b : Ref sig .tc) → Buf (Elt Ideal) ((c : Thread nD τ).loc b)) (c : Dev nD) :
    (dat0 (F := Ideal) V c).arrAt 2 cfg0.N
      = Cert.Bridge.dense (F := Ideal) (V c (Pipeline.arrRef spec0 0)) (V c (Pipeline.arrRef spec0 1)) := by
  exact (dat0 (F := Ideal) V c).arrAt_eq_of_cover 2 _ (fun t _ => flushed_eq V c t) covered

end Cert.KernelIdeal.Region0

end
-- ==== Proof.Region1.lean ====
/-
  Region 1 of the kernel's @main as one function of the arrays it enters with: its result array ends at the bias row added to every row of the first array, then the maximum with zero (each grid point writes 5000 rows, twenty points cover the 100000).
-/
import proofs.«177575_j53472342835252_1_alg».proof.Proof.Gen.KernelIdeal.Frame
import proofs.«177575_j53472342835252_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region1

open Cert.KernelIdeal Cert.KernelIdeal.Gen

theorem hz : (![0, 0] : Fin 2 → Nat) = fun _ => 0 := funext fun a => by fin_cases a <;> rfl

/-- The body's arithmetic at one entry of a block: the row's entry plus the bias entry of its column, then the maximum with zero. -/
theorem pay_apply (x0 : Vec Ideal S5000x128 .f32) (x1 : Vec Ideal S1x128 .f32) (p : Fin 5000) (q : Fin 128) :
    k1_pay1 (F := Ideal) x0 x1 (ValueIdx.ix2 p q)
      = max (x0 (ValueIdx.ix2 p q) + x1 (ValueIdx.ix2 (0 : Fin 1) q)) (Scalar.ofBits (F := Ideal) .f32 0x00000000#32) := by
  unfold k1_pay1
  simp only [shapeCast_self]
  rw [ValueIdx.maximumf_apply, ValueIdx.addf_apply, ValueIdx.broadcast_apply]
  congr 2
  refine broadcastTo_apply x1 _ (ValueIdx.ix2 p q) (ValueIdx.ix2 (0 : Fin 1) q) fun a => ?_
  match a with
  | ⟨0, _⟩ => rfl
  | ⟨1, _⟩ => rfl

/-- The reference's function at one entry: the same. -/
theorem biasRelu_apply (o : (⟨Cert.ReferenceIdeal.S100000x128, .f32⟩ : BufTy).Contents (Elt Ideal))
    (b : (⟨Cert.ReferenceIdeal.S1x128, .f32⟩ : BufTy).Contents (Elt Ideal)) (r : Fin 100000) (q : Fin 128) :
    Cert.Bridge.biasRelu (F := Ideal) o b (ValueIdx.ix2 r q)
      = max (o (ValueIdx.ix2 r q) + b (ValueIdx.ix2 (0 : Fin 1) q)) (Scalar.ofBits (F := Ideal) .f32 0x00000000#32) := by
  unfold Cert.Bridge.biasRelu
  rw [ValueIdx.maximumf_apply, ValueIdx.addf_apply]
  congr 2
  refine broadcastInDim_apply _ _ b (ValueIdx.ix2 r q) (ValueIdx.ix2 (0 : Fin 1) q) fun a => ?_
  match a with
  | ⟨0, _⟩ => rfl
  | ⟨1, _⟩ => rfl

section Blocks

variable (V : (c : Dev nD) → (b : Ref sig .tc) → Buf (Elt Ideal) ((c : Thread nD τ).loc b))

/-- The printed index maps, decided over the grid: the row-block windows sit at block (t, 0), the bias window at block (0, 0). -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

theorem lt_N (t : Fin cfg1.N) : t.val < 20 := by have := t.isLt; have h : cfg1.N = 20 := N_1; omega

/-- Entry (p, q) of point t's block of the first array is the array's entry (5000 t + p, q). -/
theorem blk0_apply (c : Dev nD) (t : Fin cfg1.N) (p : Fin 5000) (q : Fin 128) (r : Fin 100000) (hr : r.val = t.val * 5000 + p.val) :
    (iblk1 (F := Ideal) V c 0 t : Vec Ideal S5000x128 .f32) (ValueIdx.ix2 p q)
      = (V c (Pipeline.arrRef spec1 0) : S100000x128.Idx → Elt Ideal .f32) (ValueIdx.ix2 r q) := by
  obtain ⟨e0, e1, -⟩ := idx_facts t
  unfold iblk1
  rw [View.read_apply]
  show (V c (Pipeline.arrRef spec1 0) : S100000x128.Idx → Elt Ideal .f32) _ = _
  refine congrArg (V c (Pipeline.arrRef spec1 0) : S100000x128.Idx → Elt Ideal .f32) (funext fun a => Fin.ext ?_)
  match a with
  | ⟨0, _⟩ => show win1_0.index t (0 : Fin 2) * 5000 + 1 * p.val = r.val; omega
  | ⟨1, _⟩ => show win1_0.index t (1 : Fin 2) * 128 + 1 * q.val = q.val; omega

/-- Entry (0, q) of the bias window's block, at any point, is the bias array's entry (0, q). -/
theorem blk1_apply (c : Dev nD) (t : Fin cfg1.N) (q : Fin 128) :
    (iblk1 (F := Ideal) V c 1 t : Vec Ideal S1x128 .f32) (ValueIdx.ix2 (0 : Fin 1) q)
      = (V c (Pipeline.arrRef spec1 1) : S1x128.Idx → Elt Ideal .f32) (ValueIdx.ix2 (0 : Fin 1) q) := by
  obtain ⟨-, -, e0, e1, -⟩ := idx_facts t
  unfold iblk1
  rw [View.read_apply]
  show (V c (Pipeline.arrRef spec1 1) : S1x128.Idx → Elt Ideal .f32) _ = _
  refine congrArg (V c (Pipeline.arrRef spec1 1) : S1x128.Idx → Elt Ideal .f32) (funext fun a => Fin.ext ?_)
  match a with
  | ⟨0, _⟩ => show win1_1.index t (0 : Fin 2) * 1 + 1 * 0 = 0; omega
  | ⟨1, _⟩ => show win1_1.index t (1 : Fin 2) * 128 + 1 * q.val = q.val; omega

/-- WHAT POINT t WRITES BACK is block t of the whole-array function: entry (p, q) of the block is entry (5000 t + p, q) of the array. -/
theorem flushed_eq (c : Dev nD) (t : Fin cfg1.N) :
    (dat1 (F := Ideal) V c).flushed 2 t = ((cfg1.win 2).blk t).view.read (Elt Ideal)
      (Cert.Bridge.biasRelu (F := Ideal) (V c (Pipeline.arrRef spec1 0)) (V c (Pipeline.arrRef spec1 1))) := by
  show (cfg1.win 2).cut (grid1.coords t) ((dat1 (F := Ideal) V c).after 2 t) = _
  rw [after1_2]
  unfold out1_2
  rw [View.canon_unit_zero hz]
  simp only [View.ld_unit_zero (S := S5000x128) hz, View.ld_unit_zero (S := S1x128) hz]
  funext j
  obtain ⟨p, q, rfl⟩ : ∃ (p : Fin 5000) (q : Fin 128), j = ValueIdx.ix2 p q := ⟨j 0, j 1, ValueIdx.eq_ix2 j⟩
  have hr : t.val * 5000 + p.val < 100000 := by have := lt_N t; have := p.isLt; omega
  obtain ⟨-, -, -, -, e0, e1⟩ := idx_facts t
  rw [View.read_apply]
  show k1_pay1 (F := Ideal) (iblk1 V c 0 t) (iblk1 V c 1 t) (ValueIdx.ix2 p q)
    = Cert.Bridge.biasRelu (F := Ideal) (V c (Pipeline.arrRef spec1 0)) (V c (Pipeline.arrRef spec1 1)) (((cfg1.win 2).blk t).view.emb (ValueIdx.ix2 p q))
  have hemb : ((cfg1.win 2).blk t).view.emb (ValueIdx.ix2 p q) = ValueIdx.ix2 (⟨t.val * 5000 + p.val, hr⟩ : Fin 100000) q :=
    funext fun a => Fin.ext (by
      match a with
      | ⟨0, _⟩ => show win1_2.index t (0 : Fin 2) * 5000 + 1 * p.val = t.val * 5000 + p.val; omega
      | ⟨1, _⟩ => show win1_2.index t (1 : Fin 2) * 128 + 1 * q.val = q.val; omega)
  rw [hemb, pay_apply, biasRelu_apply, blk0_apply V c t p q ⟨_, hr⟩ rfl, blk1_apply]

/-- An index of the array is in point t's block iff each coordinate is in the block's range on its axis. -/
theorem mem_blk (t : Fin cfg1.N) (i : S100000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every entry of the array is written: row r is in the block of point r / 5000. -/
theorem covered (i : S100000x128.Idx) : ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 20 := N_1
  refine ⟨⟨(i 0).val / 5000, by omega⟩, flush1_2 _, ?_⟩
  obtain ⟨-, -, -, -, e0, e1⟩ := idx_facts ⟨(i 0).val / 5000, by omega⟩
  rw [mem_blk]
  intro a
  match a with
  | ⟨0, _⟩ => show win1_2.index _ (0 : Fin 2) * 5000 ≤ (i 0).val ∧ (i 0).val < win1_2.index _ (0 : Fin 2) * 5000 + 5000; rw [e0]; show (i 0).val / 5000 * 5000 ≤ (i 0).val ∧ (i 0).val < (i 0).val / 5000 * 5000 + 5000; omega
  | ⟨1, _⟩ => show win1_2.index _ (1 : Fin 2) * 128 ≤ (i 1).val ∧ (i 1).val < win1_2.index _ (1 : Fin 2) * 128 + 128; rw [e1]; omega

end Blocks

/-- The array region 1 writes, after its twenty grid points, as one function of the two arrays it reads. -/
theorem value (V : (c : Dev nD) → (b : Ref sig .tc) → Buf (Elt Ideal) ((c : Thread nD τ).loc b)) (c : Dev nD) :
    (dat1 (F := Ideal) V c).arrAt 2 cfg1.N
      = Cert.Bridge.biasRelu (F := Ideal) (V c (Pipeline.arrRef spec1 0)) (V c (Pipeline.arrRef spec1 1)) :=
  (dat1 (F := Ideal) V c).arrAt_eq_of_cover 2 _ (fun t _ => flushed_eq V c t) covered

end Cert.KernelIdeal.Region1

end
-- ==== Proof.Region2.lean ====
/-
  Region 2 of the kernel's @main as one function of the arrays it enters with: its result array ends at every row of the first array against the second (each grid point writes 5000 rows, twenty points cover the 100000).
-/
import proofs.«177575_j53472342835252_1_alg».proof.Proof.Gen.KernelIdeal.Frame
import proofs.«177575_j53472342835252_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region2

open Cert.KernelIdeal Cert.KernelIdeal.Gen

/-- The zero offsets of a whole-block access. -/
theorem hz : (![0, 0] : Fin 2 → Nat) = fun _ => 0 := funext fun a => by fin_cases a <;> rfl

/-! ## The block product read at an index

The body multiplies a block of 5000 rows by the whole 128 x 128 array: with axis 1 of the left operand contracted
against axis 0 of the right, entry (p, q) of the result is the sum over k of left(p, k) * right(k, q). -/

/-- Axis 0 of the left operand's index is the output's row. -/
theorem lhs_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- Axis 1 of the left operand's index is the contraction index. -/
theorem lhs_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- Axis 0 of the right operand's index is the contraction index. -/
theorem rhs_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- Axis 1 of the right operand's index is the output's column. -/
theorem rhs_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The body's arithmetic on its two loaded blocks, at entry (p, q): the sum over k of x0(p, k) * x1(k, q). The cast to
    the same shape and the format changes are the identity on the extended reals and the accumulator is zero. -/
theorem pay_apply (x0 : Vec Ideal S5000x128 .f32) (x1 : Vec Ideal S128x128 .f32) (p : Fin 5000) (q : Fin 128) :
    k2_pay1 (F := Ideal) x0 x1 (ValueIdx.ix2 p q) = ∑ k : Fin 128, x0 (ValueIdx.ix2 p k) * x1 (ValueIdx.ix2 k q) := by
  unfold k2_pay1
  simp only [shapeCast_self, truncf, matmul, Ideal.truncf_def]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ValueIdx.ix2 p q) ((ValueIdx.contrEquiv1 dot_S5000x128_S128x128_S5000x128_1_0_0_1_n_n 128 rfl rfl).symm k) = ValueIdx.ix2 p k := funext fun a => Fin.ext (by
    match a with
    | ⟨0, _⟩ => exact lhs_0 _ _
    | ⟨1, _⟩ => exact (lhs_1 _ _).trans hk)
  have er : dot_S5000x128_S128x128_S5000x128_1_0_0_1_n_n.rhsIdx (ValueIdx.ix2 p q) ((ValueIdx.contrEquiv1 dot_S5000x128_S128x128_S5000x128_1_0_0_1_n_n 128 rfl rfl).symm k) = ValueIdx.ix2 k q := funext fun a => Fin.ext (by
    match a with
    | ⟨0, _⟩ => exact (rhs_0 _ _).trans hk
    | ⟨1, _⟩ => exact rhs_1 _ _)
  rw [el, er]
  rfl

/-! ## The whole-array product read at an index -/

/-- Axis 0 of the left operand's index is the output's row. -/
theorem dlhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 0).val = (i 0).val := by
  unfold DotDims.lhsIdx
  rw [dif_neg (show ¬(0 : Fin Cert.ReferenceIdeal.S100000x128.rank) ∈ Cert.ReferenceIdeal.dot_S100000x128_S128x128_S100000x128_1_0_0_1_n_n.lhsBatch by decide), dif_pos (show (0 : Fin Cert.ReferenceIdeal.S100000x128.rank) ∈ Cert.ReferenceIdeal.dot_S100000x128_S128x128_S100000x128_1_0_0_1_n_n.lhsNonContracting by decide)]
  rfl
/-- Axis 1 of the left operand's index is the contraction index. -/
theorem dlhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.lhsIdx i q 1).val = (q ⟨0, by decide⟩).val :=
  Cert.ReferenceIdeal.dot_S100000x128_S128x128_S100000x128_1_0_0_1_n_n.lhsIdx_val_of_single rfl i q
/-- Axis 0 of the right operand's index is the contraction index. -/
theorem drhs_0 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 0).val = (q ⟨0, by decide⟩).val :=
  Cert.ReferenceIdeal.dot_S100000x128_S128x128_S100000x128_1_0_0_1_n_n.rhsIdx_val_of_single rfl i q
/-- Axis 1 of the right operand's index is the output's column. -/
theorem drhs_1 (i : Cert.ReferenceIdeal.S100000x128.Idx) (q : Cert.ReferenceIdeal.dot_S100000x128_S128x128_S100000x128_1_0_0_1_n_n.contr.Idx) :
    (Cert.ReferenceIdeal.dot_S100000x128_S128x128_S100000x128_1_0_0_1_n_n.rhsIdx i q 1).val = (i 1).val := by
  unfold DotDims.rhsIdx
  rw [dif_neg (show ¬(1 : Fin Cert.ReferenceIdeal.S128x128.rank) ∈ Cert.ReferenceIdeal.dot_S100000x128_S128x128_S100000x128_1_0_0_1_n_n.rhsBatch by decide), dif_pos (show (1 : Fin Cert.ReferenceIdeal.S128x128.rank) ∈ Cert.ReferenceIdeal.dot_S100000x128_S128x128_S100000x128_1_0_0_1_n_n.rhsNonContracting by decide)]
  rfl

/-- Every row of `x` against `w`, at entry (r, q): the sum over k of x(r, k) * w(k, q). -/
theorem dense_apply (x : (⟨Cert.ReferenceIdeal.S100000x128, .f32⟩ : BufTy).Contents (Elt Ideal)) (w : (⟨Cert.ReferenceIdeal.S128x128, .f32⟩ : BufTy).Contents (Elt Ideal)) (r : Fin 100000) (q : Fin 128) :
    Cert.Bridge.dense (F := Ideal) x w (ValueIdx.ix2 r q) = ∑ k : Fin 128, x (ValueIdx.ix2 r k) * w (ValueIdx.ix2 k q) := by
  unfold Cert.Bridge.dense
  simp only [Host.dotGeneral]
  rw [Ideal.dotGeneral_apply, ← Equiv.sum_comp (ValueIdx.contrEquiv1 Cert.ReferenceIdeal.dot_S100000x128_S128x128_S100000x128_1_0_0_1_n_n 128 rfl rfl).symm]
  refine Finset.sum_congr rfl fun k _ => ?_
  have hk := ValueIdx.contrEquiv1_symm_val Cert.ReferenceIdeal.dot_S100000x128_S128x128_S100000x128_1_0_0_1_n_n 128 rfl rfl k
  have el : Cert.ReferenceIdeal.dot_S100000x128_S128x128_S100000x128_1_0_0_1_n_n.lhsIdx (ValueIdx.ix2 r q) ((ValueIdx.contrEquiv1 Cert.ReferenceIdeal.dot_S100000x128_S128x128_S100000x128_1_0_0_1_n_n 128 rfl rfl).symm k) = ValueIdx.ix2 r k := funext fun a => Fin.ext (by
    match a with
    | ⟨0, _⟩ => exact dlhs_0 _ _
    | ⟨1, _⟩ => exact (dlhs_1 _ _).trans hk)
  have er : Cert.ReferenceIdeal.dot_S100000x128_S128x128_S100000x128_1_0_0_1_n_n.rhsIdx (ValueIdx.ix2 r q) ((ValueIdx.contrEquiv1 Cert.ReferenceIdeal.dot_S100000x128_S128x128_S100000x128_1_0_0_1_n_n 128 rfl rfl).symm k) = ValueIdx.ix2 k q := funext fun a => Fin.ext (by
    match a with
    | ⟨0, _⟩ => exact (drhs_0 _ _).trans hk
    | ⟨1, _⟩ => exact drhs_1 _ _)
  rw [el, er]

/-! ## The blocks -/

/-- The block indices at grid point `t`: the first input's block and the output's block are both block (t, 0) of
    5000 x 128; the second input's block is block (0, 0), the whole 128 x 128 array. -/
theorem idx_facts : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) = t.val :=
  (by decide +kernel : ∀ t : Fin grid2.N, _)

/-- Entry (p, k) of the first input's block at point `t` is entry (5000 t + p, k) of the first array. -/
theorem blk0_apply (V : (c : Dev nD) → (b : Ref sig .tc) → Buf (Elt Ideal) ((c : Thread nD τ).loc b)) (c : Dev nD) (t : Fin cfg2.N)
    (p : Fin 5000) (k : Fin 128) (r : Fin 100000) (hr : r.val = win2_2.index t (0 : Fin 2) * 5000 + p.val) :
    (iblk2 V c 0 t : Vec Ideal S5000x128 .f32) (ValueIdx.ix2 p k) = (V c (Pipeline.arrRef spec2 0) : S100000x128.Idx → Elt Ideal .f32) (ValueIdx.ix2 r k) := by
  obtain ⟨e0, e1, e2, e3, e4, e5⟩ := idx_facts t
  unfold iblk2
  rw [View.read_apply]
  show V c (Pipeline.arrRef spec2 0) _ = V c (Pipeline.arrRef spec2 0) _
  congr 1
  funext a
  apply Fin.ext
  match a with
  | ⟨0, _⟩ => show win2_0.index t (0 : Fin 2) * 5000 + 1 * p.val = r.val; omega
  | ⟨1, _⟩ => show win2_0.index t (1 : Fin 2) * 128 + 1 * k.val = k.val; omega

/-- Entry (k, q) of the second input's block at any point is entry (k, q) of the second array. -/
theorem blk1_apply (V : (c : Dev nD) → (b : Ref sig .tc) → Buf (Elt Ideal) ((c : Thread nD τ).loc b)) (c : Dev nD) (t : Fin cfg2.N)
    (k : Fin 128) (q : Fin 128) :
    (iblk2 V c 1 t : Vec Ideal S128x128 .f32) (ValueIdx.ix2 k q) = (V c (Pipeline.arrRef spec2 1) : S128x128.Idx → Elt Ideal .f32) (ValueIdx.ix2 k q) := by
  obtain ⟨e0, e1, e2, e3, e4, e5⟩ := idx_facts t
  unfold iblk2
  rw [View.read_apply]
  show V c (Pipeline.arrRef spec2 1) _ = V c (Pipeline.arrRef spec2 1) _
  congr 1
  funext a
  apply Fin.ext
  match a with
  | ⟨0, _⟩ => show win2_1.index t (0 : Fin 2) * 128 + 1 * k.val = k.val; omega
  | ⟨1, _⟩ => show win2_1.index t (1 : Fin 2) * 128 + 1 * q.val = q.val; omega

/-- What point `t` writes back is block `t` of the whole-array product: at entry (p, q) of the block both are the sum
    over k of first(5000 t + p, k) * second(k, q). -/
theorem flushed_eq (V : (c : Dev nD) → (b : Ref sig .tc) → Buf (Elt Ideal) ((c : Thread nD τ).loc b)) (c : Dev nD) (t : Fin cfg2.N) :
    (dat2 (F := Ideal) V c).flushed 2 t = ((cfg2.win 2).blk t).view.read (Elt Ideal) (Cert.Bridge.dense (F := Ideal) (V c (Pipeline.arrRef spec2 0)) (V c (Pipeline.arrRef spec2 1))) := by
  show (cfg2.win 2).cut (grid2.coords t) ((dat2 (F := Ideal) V c).after 2 t) = _
  rw [after2_2]
  unfold out2_2
  rw [View.canon_unit_zero hz]
  simp only [View.ld_unit_zero (S := S5000x128) hz, View.ld_unit_zero (S := S128x128) hz]
  funext j
  obtain ⟨p, q, rfl⟩ : ∃ (p : Fin 5000) (q : Fin 128), j = ValueIdx.ix2 p q := ⟨j 0, j 1, ValueIdx.eq_ix2 j⟩
  obtain ⟨e0, e1, e2, e3, e4, e5⟩ := idx_facts t
  have ht : t.val < 20 := lt_of_lt_of_eq t.isLt N_2
  show k2_pay1 (F := Ideal) (iblk2 V c 0 t) (iblk2 V c 1 t) (ValueIdx.ix2 p q) = Cert.Bridge.dense (F := Ideal) (V c (Pipeline.arrRef spec2 0)) (V c (Pipeline.arrRef spec2 1)) (((cfg2.win 2).blk t).view.emb (ValueIdx.ix2 p q))
  have hi : ((cfg2.win 2).blk t).view.emb (ValueIdx.ix2 p q) = ValueIdx.ix2 (⟨win2_2.index t (0 : Fin 2) * 5000 + p.val, by omega⟩ : Fin 100000) q := by
    funext a; apply Fin.ext
    match a with
    | ⟨0, _⟩ => show win2_2.index t (0 : Fin 2) * 5000 + 1 * p.val = win2_2.index t (0 : Fin 2) * 5000 + p.val; omega
    | ⟨1, _⟩ => show win2_2.index t (1 : Fin 2) * 128 + 1 * q.val = q.val; omega
  rw [hi, pay_apply, dense_apply]
  refine Finset.sum_congr rfl fun k _ => ?_
  rw [blk0_apply V c t p k ⟨win2_2.index t (0 : Fin 2) * 5000 + p.val, by omega⟩ rfl, blk1_apply V c t k q]

/-! ## The cover -/

/-- An index of the array is in point `t`'s output block iff each coordinate is in the block's range on its axis. -/
theorem mem_blk (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every index (r, q) of the array is in the output block of point r / 5000, and every point writes its block back. -/
theorem covered (i : S100000x128.Idx) : ∃ t : Fin cfg2.N, (cfg2.win 2).flush t = true ∧ i ∈ ((cfg2.win 2).blk t).view.set := by
  have hi0 : (i 0).val < 100000 := (i 0).isLt
  have hi1 : (i 1).val < 128 := (i 1).isLt
  have hN : cfg2.N = 20 := N_2
  obtain ⟨e0, e1, e2, e3, e4, e5⟩ := idx_facts ⟨(i 0).val / 5000, by rw [hN]; omega⟩
  refine ⟨⟨(i 0).val / 5000, by rw [hN]; omega⟩, flush2_2 _, ?_⟩
  rw [mem_blk]
  intro a
  match a with
  | ⟨0, _⟩ =>
    show win2_2.index ⟨(i 0).val / 5000, _⟩ (0 : Fin 2) * 5000 ≤ (i 0).val ∧ (i 0).val < win2_2.index ⟨(i 0).val / 5000, _⟩ (0 : Fin 2) * 5000 + 5000
    rw [e5]
    show (i 0).val / 5000 * 5000 ≤ (i 0).val ∧ (i 0).val < (i 0).val / 5000 * 5000 + 5000
    omega
  | ⟨1, _⟩ =>
    show win2_2.index ⟨(i 0).val / 5000, _⟩ (1 : Fin 2) * 128 ≤ (i 1).val ∧ (i 1).val < win2_2.index ⟨(i 0).val / 5000, _⟩ (1 : Fin 2) * 128 + 128
    rw [e4]
    omega

/-- The array region 2 writes, after its twenty grid points, as one function of the two arrays it reads. -/
theorem value (V : (c : Dev nD) → (b : Ref sig .tc) → Buf (Elt Ideal) ((c : Thread nD τ).loc b)) (c : Dev nD) :
    (dat2 (F := Ideal) V c).arrAt 2 cfg2.N
      = Cert.Bridge.dense (F := Ideal) (V c (Pipeline.arrRef spec2 0)) (V c (Pipeline.arrRef spec2 1)) := by
  exact (dat2 (F := Ideal) V c).arrAt_eq_of_cover 2 _ (fun t _ => flushed_eq V c t) covered

end Cert.KernelIdeal.Region2

end
-- ==== Proof.Region3.lean ====
/-
  Region 3 of the kernel's @main as one function of the arrays it enters with: its result array ends at the bias row added to every row of the first array, then the maximum with zero (each grid point writes 5000 rows, twenty points cover the 100000).
-/
import proofs.«177575_j53472342835252_1_alg».proof.Proof.Gen.KernelIdeal.Frame
import proofs.«177575_j53472342835252_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)

namespace Cert.KernelIdeal.Region3

open Cert.KernelIdeal Cert.KernelIdeal.Gen

theorem hz : (![0, 0] : Fin 2 → Nat) = fun _ => 0 := funext fun a => by fin_cases a <;> rfl

/-- The body's arithmetic at one entry of a block: the row's entry plus the bias entry of its column, then the maximum with zero. -/
theorem pay_apply (x0 : Vec Ideal S5000x128 .f32) (x1 : Vec Ideal S1x128 .f32) (p : Fin 5000) (q : Fin 128) :
    k3_pay1 (F := Ideal) x0 x1 (ValueIdx.ix2 p q)
      = max (x0 (ValueIdx.ix2 p q) + x1 (ValueIdx.ix2 (0 : Fin 1) q)) (Scalar.ofBits (F := Ideal) .f32 0x00000000#32) := by
  unfold k3_pay1
  simp only [shapeCast_self]
  rw [ValueIdx.maximumf_apply, ValueIdx.addf_apply, ValueIdx.broadcast_apply]
  congr 2
  refine broadcastTo_apply x1 _ (ValueIdx.ix2 p q) (ValueIdx.ix2 (0 : Fin 1) q) fun a => ?_
  match a with
  | ⟨0, _⟩ => rfl
  | ⟨1, _⟩ => rfl

/-- The reference's function at one entry: the same. -/
theorem biasRelu_apply (o : (⟨Cert.ReferenceIdeal.S100000x128, .f32⟩ : BufTy).Contents (Elt Ideal))
    (b : (⟨Cert.ReferenceIdeal.S1x128, .f32⟩ : BufTy).Contents (Elt Ideal)) (r : Fin 100000) (q : Fin 128) :
    Cert.Bridge.biasRelu (F := Ideal) o b (ValueIdx.ix2 r q)
      = max (o (ValueIdx.ix2 r q) + b (ValueIdx.ix2 (0 : Fin 1) q)) (Scalar.ofBits (F := Ideal) .f32 0x00000000#32) := by
  unfold Cert.Bridge.biasRelu
  rw [ValueIdx.maximumf_apply, ValueIdx.addf_apply]
  congr 2
  refine broadcastInDim_apply _ _ b (ValueIdx.ix2 r q) (ValueIdx.ix2 (0 : Fin 1) q) fun a => ?_
  match a with
  | ⟨0, _⟩ => rfl
  | ⟨1, _⟩ => rfl

section Blocks

variable (V : (c : Dev nD) → (b : Ref sig .tc) → Buf (Elt Ideal) ((c : Thread nD τ).loc b))

/-- The printed index maps, decided over the grid: the row-block windows sit at block (t, 0), the bias window at block (0, 0). -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

theorem lt_N (t : Fin cfg3.N) : t.val < 20 := by have := t.isLt; have h : cfg3.N = 20 := N_3; omega

/-- Entry (p, q) of point t's block of the first array is the array's entry (5000 t + p, q). -/
theorem blk0_apply (c : Dev nD) (t : Fin cfg3.N) (p : Fin 5000) (q : Fin 128) (r : Fin 100000) (hr : r.val = t.val * 5000 + p.val) :
    (iblk3 (F := Ideal) V c 0 t : Vec Ideal S5000x128 .f32) (ValueIdx.ix2 p q)
      = (V c (Pipeline.arrRef spec3 0) : S100000x128.Idx → Elt Ideal .f32) (ValueIdx.ix2 r q) := by
  obtain ⟨e0, e1, -⟩ := idx_facts t
  unfold iblk3
  rw [View.read_apply]
  show (V c (Pipeline.arrRef spec3 0) : S100000x128.Idx → Elt Ideal .f32) _ = _
  refine congrArg (V c (Pipeline.arrRef spec3 0) : S100000x128.Idx → Elt Ideal .f32) (funext fun a => Fin.ext ?_)
  match a with
  | ⟨0, _⟩ => show win3_0.index t (0 : Fin 2) * 5000 + 1 * p.val = r.val; omega
  | ⟨1, _⟩ => show win3_0.index t (1 : Fin 2) * 128 + 1 * q.val = q.val; omega

/-- Entry (0, q) of the bias window's block, at any point, is the bias array's entry (0, q). -/
theorem blk1_apply (c : Dev nD) (t : Fin cfg3.N) (q : Fin 128) :
    (iblk3 (F := Ideal) V c 1 t : Vec Ideal S1x128 .f32) (ValueIdx.ix2 (0 : Fin 1) q)
      = (V c (Pipeline.arrRef spec3 1) : S1x128.Idx → Elt Ideal .f32) (ValueIdx.ix2 (0 : Fin 1) q) := by
  obtain ⟨-, -, e0, e1, -⟩ := idx_facts t
  unfold iblk3
  rw [View.read_apply]
  show (V c (Pipeline.arrRef spec3 1) : S1x128.Idx → Elt Ideal .f32) _ = _
  refine congrArg (V c (Pipeline.arrRef spec3 1) : S1x128.Idx → Elt Ideal .f32) (funext fun a => Fin.ext ?_)
  match a with
  | ⟨0, _⟩ => show win3_1.index t (0 : Fin 2) * 1 + 1 * 0 = 0; omega
  | ⟨1, _⟩ => show win3_1.index t (1 : Fin 2) * 128 + 1 * q.val = q.val; omega

/-- WHAT POINT t WRITES BACK is block t of the whole-array function: entry (p, q) of the block is entry (5000 t + p, q) of the array. -/
theorem flushed_eq (c : Dev nD) (t : Fin cfg3.N) :
    (dat3 (F := Ideal) V c).flushed 2 t = ((cfg3.win 2).blk t).view.read (Elt Ideal)
      (Cert.Bridge.biasRelu (F := Ideal) (V c (Pipeline.arrRef spec3 0)) (V c (Pipeline.arrRef spec3 1))) := by
  show (cfg3.win 2).cut (grid3.coords t) ((dat3 (F := Ideal) V c).after 2 t) = _
  rw [after3_2]
  unfold out3_2
  rw [View.canon_unit_zero hz]
  simp only [View.ld_unit_zero (S := S5000x128) hz, View.ld_unit_zero (S := S1x128) hz]
  funext j
  obtain ⟨p, q, rfl⟩ : ∃ (p : Fin 5000) (q : Fin 128), j = ValueIdx.ix2 p q := ⟨j 0, j 1, ValueIdx.eq_ix2 j⟩
  have hr : t.val * 5000 + p.val < 100000 := by have := lt_N t; have := p.isLt; omega
  obtain ⟨-, -, -, -, e0, e1⟩ := idx_facts t
  rw [View.read_apply]
  show k3_pay1 (F := Ideal) (iblk3 V c 0 t) (iblk3 V c 1 t) (ValueIdx.ix2 p q)
    = Cert.Bridge.biasRelu (F := Ideal) (V c (Pipeline.arrRef spec3 0)) (V c (Pipeline.arrRef spec3 1)) (((cfg3.win 2).blk t).view.emb (ValueIdx.ix2 p q))
  have hemb : ((cfg3.win 2).blk t).view.emb (ValueIdx.ix2 p q) = ValueIdx.ix2 (⟨t.val * 5000 + p.val, hr⟩ : Fin 100000) q :=
    funext fun a => Fin.ext (by
      match a with
      | ⟨0, _⟩ => show win3_2.index t (0 : Fin 2) * 5000 + 1 * p.val = t.val * 5000 + p.val; omega
      | ⟨1, _⟩ => show win3_2.index t (1 : Fin 2) * 128 + 1 * q.val = q.val; omega)
  rw [hemb, pay_apply, biasRelu_apply, blk0_apply V c t p q ⟨_, hr⟩ rfl, blk1_apply]

/-- An index of the array is in point t's block iff each coordinate is in the block's range on its axis. -/
theorem mem_blk (t : Fin cfg3.N) (i : S100000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every entry of the array is written: row r is in the block of point r / 5000. -/
theorem covered (i : S100000x128.Idx) : ∃ t : Fin cfg3.N, (cfg3.win 2).flush t = true ∧ i ∈ ((cfg3.win 2).blk t).view.set := by
  have hi0 : (i 0).val < 100000 := (i 0).isLt
  have hi1 : (i 1).val < 128 := (i 1).isLt
  have hN : cfg3.N = 20 := N_3
  refine ⟨⟨(i 0).val / 5000, by omega⟩, flush3_2 _, ?_⟩
  obtain ⟨-, -, -, -, e0, e1⟩ := idx_facts ⟨(i 0).val / 5000, by omega⟩
  rw [mem_blk]
  intro a
  match a with
  | ⟨0, _⟩ => show win3_2.index _ (0 : Fin 2) * 5000 ≤ (i 0).val ∧ (i 0).val < win3_2.index _ (0 : Fin 2) * 5000 + 5000; rw [e0]; show (i 0).val / 5000 * 5000 ≤ (i 0).val ∧ (i 0).val < (i 0).val / 5000 * 5000 + 5000; omega
  | ⟨1, _⟩ => show win3_2.index _ (1 : Fin 2) * 128 ≤ (i 1).val ∧ (i 1).val < win3_2.index _ (1 : Fin 2) * 128 + 128; rw [e1]; omega

end Blocks

/-- The array region 3 writes, after its twenty grid points, as one function of the two arrays it reads. -/
theorem value (V : (c : Dev nD) → (b : Ref sig .tc) → Buf (Elt Ideal) ((c : Thread nD τ).loc b)) (c : Dev nD) :
    (dat3 (F := Ideal) V c).arrAt 2 cfg3.N
      = Cert.Bridge.biasRelu (F := Ideal) (V c (Pipeline.arrRef spec3 0)) (V c (Pipeline.arrRef spec3 1)) :=
  (dat3 (F := Ideal) V c).arrAt_eq_of_cover 2 _ (fun t _ => flushed_eq V c t) covered

end Cert.KernelIdeal.Region3

end
-- ==== Proof.HostStages.lean ====
/-
  What each stretch of host operations of the kernel's @main leaves in the buffers the regions read, as the shared
  stage functions of the contents the stretch starts from: the edge arrays and the edge weights before the first region,
  the aggregate of a dense region's result and the bias laid out as a row before each bias-and-maximum region; every
  other buffer a later item reads passes through a stretch unchanged.
-/
import proofs.«177575_j53472342835252_1_alg».proof.Proof.Gen.KernelIdeal.Frame
import proofs.«177575_j53472342835252_1_alg».proof.Proof.Chains
import Idealize.ShloMosaic.Lib.StableHlo.Run

set_option maxRecDepth 16384

noncomputable section

open Idealize.ShloMosaic Idealize.ShloMosaic.TcCoe Idealize.SL.Sem Idealize.ShloMosaic.StableHlo

namespace Cert.KernelIdeal.HostStages

open Cert.KernelIdeal Cert.KernelIdeal.Gen Cert.Bridge

variable {F : FTy → Type} [FloatOps F]
variable (m : (ℓ : Loc nD τ sig) → Buf (Elt F) ℓ) (ρ : Dev nD → PrngReg)

/-! ## Before the first region: the edge arrays, the edge weights, the arguments -/

/-- The sources with self loops, from the launch contents of the edge list. -/
theorem W3_src (c : Dev nD) : W3 m ρ c (Proc.devRef .tc main_v5) = srcIx (m ((c : Thread nD τ).loc main_arg1)) := by
  show StableHlo.after hostOps0_2 (StableHlo.after hostOps0_1 (StableHlo.after hostOps0 (W0 m ρ c))) (Proc.devRef .tc main_v5) = _
  after_results_simp
  rfl

/-- The destinations with self loops. -/
theorem W3_dst (c : Dev nD) : W3 m ρ c (Proc.devRef .tc main_v6) = dstIx (m ((c : Thread nD τ).loc main_arg1)) := by
  show StableHlo.after hostOps0_2 (StableHlo.after hostOps0_1 (StableHlo.after hostOps0 (W0 m ρ c))) (Proc.devRef .tc main_v6) = _
  after_results_simp
  rfl

/-- The edge weights, from the two edge arrays. -/
theorem W3_norm (c : Dev nD) : W3 m ρ c (Proc.devRef .tc main_v29)
    = edgeNorm (srcIx (m ((c : Thread nD τ).loc main_arg1))) (dstIx (m ((c : Thread nD τ).loc main_arg1))) := by
  show StableHlo.after hostOps0_2 (StableHlo.after hostOps0_1 (StableHlo.after hostOps0 (W0 m ρ c))) (Proc.devRef .tc main_v29) = _
  after_results_simp
  rfl

/-- No host operation before the first region writes argument 0. -/
theorem W3_arg0 (c : Dev nD) : W3 m ρ c (Proc.devRef .tc main_arg0) = m ((c : Thread nD τ).loc main_arg0) := by
  show StableHlo.after hostOps0_2 (StableHlo.after hostOps0_1 (StableHlo.after hostOps0 (W0 m ρ c))) (Proc.devRef .tc main_arg0) = _
  after_results_simp

/-- No host operation before the first region writes argument 2. -/
theorem W3_arg2 (c : Dev nD) : W3 m ρ c (Proc.devRef .tc main_arg2) = m ((c : Thread nD τ).loc main_arg2) := by
  show StableHlo.after hostOps0_2 (StableHlo.after hostOps0_1 (StableHlo.after hostOps0 (W0 m ρ c))) (Proc.devRef .tc main_arg2) = _
  after_results_simp

/-- No host operation before the first region writes argument 3. -/
theorem W3_arg3 (c : Dev nD) : W3 m ρ c (Proc.devRef .tc main_arg3) = m ((c : Thread nD τ).loc main_arg3) := by
  show StableHlo.after hostOps0_2 (StableHlo.after hostOps0_1 (StableHlo.after hostOps0 (W0 m ρ c))) (Proc.devRef .tc main_arg3) = _
  after_results_simp

/-- No host operation before the first region writes argument 4. -/
theorem W3_arg4 (c : Dev nD) : W3 m ρ c (Proc.devRef .tc main_arg4) = m ((c : Thread nD τ).loc main_arg4) := by
  show StableHlo.after hostOps0_2 (StableHlo.after hostOps0_1 (StableHlo.after hostOps0 (W0 m ρ c))) (Proc.devRef .tc main_arg4) = _
  after_results_simp

/-- No host operation before the first region writes argument 5. -/
theorem W3_arg5 (c : Dev nD) : W3 m ρ c (Proc.devRef .tc main_arg5) = m ((c : Thread nD τ).loc main_arg5) := by
  show StableHlo.after hostOps0_2 (StableHlo.after hostOps0_1 (StableHlo.after hostOps0 (W0 m ρ c))) (Proc.devRef .tc main_arg5) = _
  after_results_simp

/-! ## Across the first dense region: only its own arrays change -/

theorem W4_keeps_main_v5 (c : Dev nD) : W4 m ρ c (Proc.devRef .tc main_v5) = W3 m ρ c (Proc.devRef .tc main_v5) :=
  W4_of_ne m ρ c main_v5 (by decide)

theorem W4_keeps_main_v6 (c : Dev nD) : W4 m ρ c (Proc.devRef .tc main_v6) = W3 m ρ c (Proc.devRef .tc main_v6) :=
  W4_of_ne m ρ c main_v6 (by decide)

theorem W4_keeps_main_v29 (c : Dev nD) : W4 m ρ c (Proc.devRef .tc main_v29) = W3 m ρ c (Proc.devRef .tc main_v29) :=
  W4_of_ne m ρ c main_v29 (by decide)

theorem W4_keeps_main_arg3 (c : Dev nD) : W4 m ρ c (Proc.devRef .tc main_arg3) = W3 m ρ c (Proc.devRef .tc main_arg3) :=
  W4_of_ne m ρ c main_arg3 (by decide)

theorem W4_keeps_main_arg4 (c : Dev nD) : W4 m ρ c (Proc.devRef .tc main_arg4) = W3 m ρ c (Proc.devRef .tc main_arg4) :=
  W4_of_ne m ρ c main_arg4 (by decide)

theorem W4_keeps_main_arg5 (c : Dev nD) : W4 m ρ c (Proc.devRef .tc main_arg5) = W3 m ρ c (Proc.devRef .tc main_arg5) :=
  W4_of_ne m ρ c main_arg5 (by decide)

/-! ## Between the first dense region and the first bias-and-maximum region -/

/-- The aggregate of the dense region's result over the edge arrays. -/
theorem W5_agg (c : Dev nD) : W5 m ρ c (Proc.devRef .tc main_v43)
    = aggregate (W4 m ρ c (Proc.devRef .tc main_v30)) (W4 m ρ c (Proc.devRef .tc main_v5)) (W4 m ρ c (Proc.devRef .tc main_v6)) (W4 m ρ c (Proc.devRef .tc main_v29)) := by
  show StableHlo.after hostOps1 (W4 m ρ c) (Proc.devRef .tc main_v43) = _
  after_results_simp
  rfl

/-- The first bias vector reshaped to one row. -/
theorem W5_row (c : Dev nD) : W5 m ρ c (Proc.devRef .tc main_v44)
    = shapeCast S1x128 (W4 m ρ c (Proc.devRef .tc main_arg3)) Facts₀.shapeCasts_S128_S1x128 := by
  show StableHlo.after hostOps1 (W4 m ρ c) (Proc.devRef .tc main_v44) = _
  after_results_simp
  rfl

theorem W5_keeps_main_v5 (c : Dev nD) : W5 m ρ c (Proc.devRef .tc main_v5) = W4 m ρ c (Proc.devRef .tc main_v5) := by
  show StableHlo.after hostOps1 (W4 m ρ c) (Proc.devRef .tc main_v5) = _
  after_results_simp

theorem W5_keeps_main_v6 (c : Dev nD) : W5 m ρ c (Proc.devRef .tc main_v6) = W4 m ρ c (Proc.devRef .tc main_v6) := by
  show StableHlo.after hostOps1 (W4 m ρ c) (Proc.devRef .tc main_v6) = _
  after_results_simp

theorem W5_keeps_main_v29 (c : Dev nD) : W5 m ρ c (Proc.devRef .tc main_v29) = W4 m ρ c (Proc.devRef .tc main_v29) := by
  show StableHlo.after hostOps1 (W4 m ρ c) (Proc.devRef .tc main_v29) = _
  after_results_simp

theorem W5_keeps_main_arg4 (c : Dev nD) : W5 m ρ c (Proc.devRef .tc main_arg4) = W4 m ρ c (Proc.devRef .tc main_arg4) := by
  show StableHlo.after hostOps1 (W4 m ρ c) (Proc.devRef .tc main_arg4) = _
  after_results_simp

theorem W5_keeps_main_arg5 (c : Dev nD) : W5 m ρ c (Proc.devRef .tc main_arg5) = W4 m ρ c (Proc.devRef .tc main_arg5) := by
  show StableHlo.after hostOps1 (W4 m ρ c) (Proc.devRef .tc main_arg5) = _
  after_results_simp

/-! ## Across the first bias-and-maximum region and the second dense region -/

theorem W6_keeps_main_v5 (c : Dev nD) : W6 m ρ c (Proc.devRef .tc main_v5) = W5 m ρ c (Proc.devRef .tc main_v5) :=
  W6_of_ne m ρ c main_v5 (by decide)

theorem W6_keeps_main_v6 (c : Dev nD) : W6 m ρ c (Proc.devRef .tc main_v6) = W5 m ρ c (Proc.devRef .tc main_v6) :=
  W6_of_ne m ρ c main_v6 (by decide)

theorem W6_keeps_main_v29 (c : Dev nD) : W6 m ρ c (Proc.devRef .tc main_v29) = W5 m ρ c (Proc.devRef .tc main_v29) :=
  W6_of_ne m ρ c main_v29 (by decide)

theorem W6_keeps_main_arg4 (c : Dev nD) : W6 m ρ c (Proc.devRef .tc main_arg4) = W5 m ρ c (Proc.devRef .tc main_arg4) :=
  W6_of_ne m ρ c main_arg4 (by decide)

theorem W6_keeps_main_arg5 (c : Dev nD) : W6 m ρ c (Proc.devRef .tc main_arg5) = W5 m ρ c (Proc.devRef .tc main_arg5) :=
  W6_of_ne m ρ c main_arg5 (by decide)

theorem W7_keeps_main_v5 (c : Dev nD) : W7 m ρ c (Proc.devRef .tc main_v5) = W6 m ρ c (Proc.devRef .tc main_v5) :=
  W7_of_ne m ρ c main_v5 (by decide)

theorem W7_keeps_main_v6 (c : Dev nD) : W7 m ρ c (Proc.devRef .tc main_v6) = W6 m ρ c (Proc.devRef .tc main_v6) :=
  W7_of_ne m ρ c main_v6 (by decide)

theorem W7_keeps_main_v29 (c : Dev nD) : W7 m ρ c (Proc.devRef .tc main_v29) = W6 m ρ c (Proc.devRef .tc main_v29) :=
  W7_of_ne m ρ c main_v29 (by decide)

theorem W7_keeps_main_arg5 (c : Dev nD) : W7 m ρ c (Proc.devRef .tc main_arg5) = W6 m ρ c (Proc.devRef .tc main_arg5) :=
  W7_of_ne m ρ c main_arg5 (by decide)

/-! ## Between the second dense region and the second bias-and-maximum region -/

/-- The aggregate of the second dense region's result over the same edge arrays. -/
theorem W8_agg (c : Dev nD) : W8 m ρ c (Proc.devRef .tc main_v59)
    = aggregate (W7 m ρ c (Proc.devRef .tc main_v46)) (W7 m ρ c (Proc.devRef .tc main_v5)) (W7 m ρ c (Proc.devRef .tc main_v6)) (W7 m ρ c (Proc.devRef .tc main_v29)) := by
  show StableHlo.after hostOps3 (W7 m ρ c) (Proc.devRef .tc main_v59) = _
  after_results_simp
  rfl

/-- The second bias vector reshaped to one row. -/
theorem W8_row (c : Dev nD) : W8 m ρ c (Proc.devRef .tc main_v60)
    = shapeCast S1x128 (W7 m ρ c (Proc.devRef .tc main_arg5)) Facts₀.shapeCasts_S128_S1x128 := by
  show StableHlo.after hostOps3 (W7 m ρ c) (Proc.devRef .tc main_v60) = _
  after_results_simp
  rfl

end Cert.KernelIdeal.HostStages

end
-- ==== Proof.Layer.lean ====
/-
  One graph-convolution layer and the two-layer network as functions of the argument arrays, over the shared stages:
  a layer is the dense transform of the node rows, the weighted sum of source rows into destination rows, the bias
  row added and the maximum with zero; the network is two layers over the same edge arrays and edge weights.
-/
import proofs.«177575_j53472342835252_1_alg».proof.Proof.Spec
import proofs.«177575_j53472342835252_1_alg».proof.Proof.Chains

noncomputable section

namespace Cert.Bridge

open Idealize.ShloMosaic Cert.ReferenceIdeal

variable {F : FTy → Type} [FloatOps F]

/-- One layer: relu (aggregate (x · w) + b), the bias given as one row. -/
def layer (x : (⟨S100000x128, .f32⟩ : BufTy).Contents (Elt F)) (w : (⟨S128x128, .f32⟩ : BufTy).Contents (Elt F))
    (brow : (⟨S1x128, .f32⟩ : BufTy).Contents (Elt F)) (s d : (⟨S1700000, .i32⟩ : BufTy).Contents (Elt F))
    (nrm : (⟨S1700000, .f32⟩ : BufTy).Contents (Elt F)) : (⟨S100000x128, .f32⟩ : BufTy).Contents (Elt F) :=
  biasRelu (aggregate (dense x w) s d nrm) brow

/-- Two layers over the edge list `e` with self loops appended and its symmetric degree weights. -/
def network (x : (⟨S100000x128, .f32⟩ : BufTy).Contents (Elt F)) (e : (⟨S2x1600000, .i32⟩ : BufTy).Contents (Elt F))
    (w1 : (⟨S128x128, .f32⟩ : BufTy).Contents (Elt F)) (b1 : (⟨S128, .f32⟩ : BufTy).Contents (Elt F))
    (w2 : (⟨S128x128, .f32⟩ : BufTy).Contents (Elt F)) (b2 : (⟨S128, .f32⟩ : BufTy).Contents (Elt F)) :
    (⟨S100000x128, .f32⟩ : BufTy).Contents (Elt F) :=
  layer (layer x w1 (asRow b1) (srcIx e) (dstIx e) (edgeNorm (srcIx e) (dstIx e))) w2 (asRow b2)
    (srcIx e) (dstIx e) (edgeNorm (srcIx e) (dstIx e))

end Cert.Bridge

end
-- ==== Proof.Stages.lean ====
/-
  What the kernel's @main holds in the buffers that matter at each boundary between its host stretches and its four
  regions, read back from the last boundary to the launch: the result is the second layer's bias-and-maximum region
  over the aggregate of the second dense region over the first layer's, each over the shared edge arrays and the
  launch contents of the arguments.
-/
import proofs.«177575_j53472342835252_1_alg».proof.Proof.Gen.KernelIdeal.Frame
import proofs.«177575_j53472342835252_1_alg».proof.Proof.Chains
import proofs.«177575_j53472342835252_1_alg».proof.Proof.Spec
import proofs.«177575_j53472342835252_1_alg».proof.Proof.Region0
import proofs.«177575_j53472342835252_1_alg».proof.Proof.Region1
import proofs.«177575_j53472342835252_1_alg».proof.Proof.Region2
import proofs.«177575_j53472342835252_1_alg».proof.Proof.Region3
import proofs.«177575_j53472342835252_1_alg».proof.Proof.HostStages
import proofs.«177575_j53472342835252_1_alg».proof.Proof.Layer
import Idealize.ShloMosaic.Lib.StableHlo.Run
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.StableHlo

namespace Cert.KernelIdeal.Stages

open Cert.KernelIdeal Cert.KernelIdeal.Gen Cert.Bridge Cert.KernelIdeal.HostStages ValueIdx

variable (m : (ℓ : Loc nD τ sig) → Buf (Elt Ideal) ℓ) (ρ : Dev nD → PrngReg)

/-- A vector of 128 entries reshaped to one row of 128 is the vector laid out along the row axis: entry (0, q) of
    either is entry q of the vector. -/
theorem reshape_row {α : Type} (b : (⟨1, ![128]⟩ : Shape).Idx → α) (h : (⟨1, ![128]⟩ : Shape).ShapeCasts ⟨2, ![1, 128]⟩)
    (h' : (⟨1, ![128]⟩ : Shape).BroadcastsInDim ⟨2, ![1, 128]⟩ ![1]) :
    shapeCast ⟨2, ![1, 128]⟩ b h = broadcastInDim ⟨2, ![1, 128]⟩ ![1] h' b := by
  funext j
  obtain ⟨p, q, rfl⟩ : ∃ (p : Fin 1) (q : Fin 128), j = ix2 p q := ⟨j 0, j 1, eq_ix2 j⟩
  have hp : p.val = 0 := by omega
  rw [shapeCast_apply b h (ix2 p q) (ix1 q) (by rw [Shape.rowMajor_val_one, Shape.rowMajor_val_two]; show q.val = p.val * 128 + q.val; omega),
    broadcastInDim_apply ![1] h' b (ix2 p q) (ix1 q) (fun a => by match a with | ⟨0, _⟩ => rfl)]

/-- The kernel's result buffer at the last boundary is the two-layer network of the launch contents of the arguments. -/
theorem result_eq (c : Dev nD) :
    W9 m ρ c (Proc.devRef .tc main_v61)
      = network (F := Ideal) (m ((c : Thread nD τ).loc main_arg0)) (m ((c : Thread nD τ).loc main_arg1))
          (m ((c : Thread nD τ).loc main_arg2)) (m ((c : Thread nD τ).loc main_arg3))
          (m ((c : Thread nD τ).loc main_arg4)) (m ((c : Thread nD τ).loc main_arg5)) := by
  -- the second bias-and-maximum region, over what the last host stretch leaves
  refine (W9_arr m ρ c 2).trans ?_
  rw [Cert.KernelIdeal.Region3.value (V8 m ρ) c]
  show biasRelu (W8 m ρ c (Proc.devRef .tc main_v59)) (W8 m ρ c (Proc.devRef .tc main_v60)) = _
  rw [W8_agg, W8_row, reshape_row]
  -- the second dense region, over the first layer's result
  rw [W7_keeps_main_v5, W7_keeps_main_v6, W7_keeps_main_v29, W7_keeps_main_arg5]
  rw [show W7 m ρ c (Proc.devRef .tc main_v46) = (dat2 (V6 m ρ) c).arrAt 2 cfg2.N from W7_arr m ρ c 2]
  rw [Cert.KernelIdeal.Region2.value (V6 m ρ) c]
  show biasRelu (aggregate (dense (W6 m ρ c (Proc.devRef .tc main_v45)) (W6 m ρ c (Proc.devRef .tc main_arg4))) _ _ _) _ = _
  -- the first bias-and-maximum region
  rw [W6_keeps_main_v5, W6_keeps_main_v6, W6_keeps_main_v29, W6_keeps_main_arg4, W6_keeps_main_arg5]
  rw [show W6 m ρ c (Proc.devRef .tc main_v45) = (dat1 (V5 m ρ) c).arrAt 2 cfg1.N from W6_arr m ρ c 2]
  rw [Cert.KernelIdeal.Region1.value (V5 m ρ) c]
  show biasRelu (aggregate (dense (biasRelu (W5 m ρ c (Proc.devRef .tc main_v43)) (W5 m ρ c (Proc.devRef .tc main_v44))) _) _ _ _) _ = _
  rw [W5_agg, W5_row, reshape_row]
  rw [W5_keeps_main_v5, W5_keeps_main_v6, W5_keeps_main_v29, W5_keeps_main_arg4, W5_keeps_main_arg5]
  -- the first dense region, over the launch contents
  rw [W4_keeps_main_v5, W4_keeps_main_v6, W4_keeps_main_v29, W4_keeps_main_arg3, W4_keeps_main_arg4, W4_keeps_main_arg5]
  rw [show W4 m ρ c (Proc.devRef .tc main_v30) = (dat0 (V3 m ρ) c).arrAt 2 cfg0.N from W4_arr m ρ c 2]
  rw [Cert.KernelIdeal.Region0.value (V3 m ρ) c]
  show biasRelu (aggregate (dense (biasRelu (aggregate (dense (W3 m ρ c (Proc.devRef .tc main_arg0)) (W3 m ρ c (Proc.devRef .tc main_arg2))) _ _ _) _) _) _ _ _) _ = _
  rw [W3_src, W3_dst, W3_norm, W3_arg0, W3_arg2, W3_arg3, W3_arg4, W3_arg5]
  rfl

end Cert.KernelIdeal.Stages

end
-- ==== Proof.RefSide.lean ====
/-
  The reference's result, as its run states it — one composed term of the six arguments — is the two-layer network
  over the shared stages: the same operations in the same order, grouped by stage.
-/
import proofs.«177575_j53472342835252_1_alg».proof.Proof.RefRun
import proofs.«177575_j53472342835252_1_alg».proof.Proof.Layer

set_option maxRecDepth 16384

noncomputable section

namespace Cert.RefSide

open Idealize.ShloMosaic Idealize.ShloMosaic.TcCoe Idealize.SL.Sem Cert.ReferenceIdeal Cert.Bridge

variable {F : FTy → Type} [FloatOps F]

/-- The reference run's result term is the network of the launch contents of its arguments. -/
theorem res_eq (m : (ℓ : Loc nD τ sig) → Buf (Elt F) ℓ) (c : Dev nD) :
    Cert.ReferenceIdeal.Value.res_main_v65 (F := F) m c
      = network (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Cert.ReferenceIdeal.Value.res_main_v65 network layer biasRelu aggregate dense edgeNorm invDeg wrapIx srcIx dstIx asRow
  rfl

end Cert.RefSide

end
-- ==== Proof.lean ====
/-
  The certificate of a two-layer graph convolution: per layer a dense transform of the node rows, the weighted sum of
  source rows into destination rows over the edge list with self loops (symmetric inverse-root-degree weights), a bias
  and the maximum with zero. The kernel computes the dense transform and the bias-and-maximum blockwise, 5000 rows at a
  grid point, and everything else on the host exactly as the reference does. Over the extended reals the blockwise
  dense transform is the whole one (each entry is the same sum over the 128 contracted terms; a change of float format
  is the identity), the blockwise bias-and-maximum is the whole one entry by entry, and the host stages are the same
  operations on equal arrays: so both programs end at one function of the arguments, `Cert.Bridge.network`.
  The kernel programs' frames and the launch are generated; the reference's run is the generated one in a repaired copy.
-/
import proofs.«177575_j53472342835252_1_alg».proof.Defs
import proofs.«177575_j53472342835252_1_alg».proof.Proof.Gen.Kernel
import proofs.«177575_j53472342835252_1_alg».proof.Proof.Gen.Kernel.Frame
import proofs.«177575_j53472342835252_1_alg».proof.Proof.Gen.KernelIdeal
import proofs.«177575_j53472342835252_1_alg».proof.Proof.Gen.KernelIdeal.Frame
import proofs.«177575_j53472342835252_1_alg».proof.Proof.Gen.ReferenceIdeal
import proofs.«177575_j53472342835252_1_alg».proof.Proof.Gen.Pre_finite_inputs
import proofs.«177575_j53472342835252_1_alg».proof.Proof.KernelRun
import proofs.«177575_j53472342835252_1_alg».proof.Proof.Stages
import proofs.«177575_j53472342835252_1_alg».proof.Proof.RefRun
import proofs.«177575_j53472342835252_1_alg».proof.Proof.RefSide
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as launched. -/
theorem frame_k : Cert.frame_Kernel := fun m ρ _ => Cert.Kernel.Gen.frame m ρ

/-- So does the idealized kernel. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- Both idealized programs end with the two-layer network of their (agreeing) arguments in the result buffer. -/
theorem algebraic : Cert.algebraic_KernelIdeal_ReferenceIdeal := by
  intro m ρ m' ρ' _ hagree
  refine ⟨fun c => Cert.KernelIdeal.Gen.W9 m ρ c (Proc.devRef .tc Cert.KernelIdeal.main_v61),
    Cert.KernelIdeal.RunNamed.run_named (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  refine (Cert.RefSide.res_eq m' c).trans (.trans ?_ (Cert.KernelIdeal.Stages.result_eq m ρ c).symm)
  rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
